-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S16x4096x2048 : Shape := ⟨3, ![16, 4096, 2048]⟩
abbrev S16x2048x2048 : Shape := ⟨3, ![16, 2048, 2048]⟩
abbrev S16 : Shape := ⟨1, ![16]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S16x4096x2048 : S_.BroadcastsInDim S16x4096x2048 (![] : Fin 0 → Fin S16x4096x2048.rank)
  reducesTo_S16x4096x2048_S_d0_1_2 : S16x4096x2048.ReducesTo [0, 1, 2] S_
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S32768x2048 .f32) (main_arg1 : FVec F S16x4096x2048 .f32) (main_arg2 : FVec F S16x2048x2048 .f32) (main_arg3 : IVec S16 32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S16x4096x2048 .f32 := Host.absf main_arg1
  let main_cst_0 : FVec F S_ .f32 := constant S_ .f32 0x7F800000#32
  let main_v5 : FVec F S16x4096x2048 .f32 := broadcastInDim S16x4096x2048 ![] bcast_S_S16x4096x2048 main_cst_0
  let main_v6 : IVec S16x4096x2048 1 := cmpf .olt main_v4 main_v5
  let main_c_1 : IVec S_ 1 := constantI S_ 1 1#1
  let main_v7 : IVec S_ 1 := (fun x v => Host.reduce IntOp.andi x v reducesTo_S16x4096x2048_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  main_v13
-- ==== Kernel.lean ====
abbrev S32768x2048 : Shape := ⟨2, ![32768, 2048]⟩
abbrev S16x4096x2048 : Shape := ⟨3, ![16, 4096, 2048]⟩
abbrev S16x2048x2048 : Shape := ⟨3, ![16, 2048, 2048]⟩
abbrev S16 : Shape := ⟨1, ![16]⟩
abbrev S16x2x2048x2048 : Shape := ⟨4, ![16, 2, 2048, 2048]⟩
abbrev S1x512x2048 : Shape := ⟨3, ![1, 512, 2048]⟩
abbrev S1x2x128x2048 : Shape := ⟨4, ![1, 2, 128, 2048]⟩
abbrev S1x128x2048 : Shape := ⟨3, ![1, 128, 2048]⟩
abbrev S512x2048 : Shape := ⟨2, ![512, 2048]⟩
abbrev S2x128x2048 : Shape := ⟨3, ![2, 128, 2048]⟩
abbrev S256x2048 : Shape := ⟨2, ![256, 2048]⟩
abbrev S512x256 : Shape := ⟨2, ![512, 256]⟩
abbrev S512x128 : Shape := ⟨2, ![512, 128]⟩
abbrev S128x2048 : Shape := ⟨2, ![128, 2048]⟩

abbrev nBuf : Space → Nat
  | .hbm => 8
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S16x4096x2048, .f32⟩
  | .hbm, ⟨2, _⟩ => ⟨S16x2048x2048, .f32⟩
  | .hbm, ⟨3, _⟩ => ⟨S16, .i32⟩
  | .hbm, ⟨4, _⟩ => ⟨S16x2048x2048, .f32⟩
  | .hbm, ⟨5, _⟩ => ⟨S16x2x2048x2048, .f32⟩
  | .hbm, ⟨6, _⟩ => ⟨S16x2048x2048, .f32⟩
  | .hbm, ⟨7, _⟩ => ⟨S32768x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2x128x2048, .f32⟩
  | .local _ .vmem, ⟨3, _⟩ => ⟨S1x2x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x512x2048, .f32⟩
  | .local _ .vmem, ⟨7, _⟩ => ⟨S1x512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 16], ![false, false, false]⟩

def k0_cond2 (i : grid0.Coords) : BitVec 1 :=
  let arg2 : BitVec 32 := BitVec.ofNat 32 (i 2).val
  let c15_i32 : BitVec 32 := 15#32
  let v26 : BitVec 1 := Scalar.cmpi .eq arg2 c15_i32
  let v27 : BitVec 32 := Scalar.extui v26
  let c0_i32_15 : BitVec 32 := 0#32
  let v28 : BitVec 1 := Scalar.cmpi .ne v27 c0_i32_15
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32768x2048_S16x2048x2048 : S32768x2048.ShapeCasts S16x2048x2048
  shapeCasts_S16x4096x2048_S16x2x2048x2048 : S16x4096x2048.ShapeCasts S16x2x2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2x128x2048_S1x2x128x2048_0_0_0_0 : ∀ a, (![0, 0, 0, 0] : Fin 4 → Nat) a + S1x2x128x2048.size a ≤ S1x2x128x2048.size a
  h_S1x2x128x2048 : 0 < S1x2x128x2048.numel
  shapeCasts_S1x2x128x2048_S2x128x2048 : S1x2x128x2048.ShapeCasts S2x128x2048
  shapeCasts_S2x128x2048_S256x2048 : S2x128x2048.ShapeCasts S256x2048
  slices_S512x256_o0_0_S512x128 : S512x256.Slices ![0, 0] S512x128
  slices_S512x256_o0_128_S512x128 : S512x256.Slices ![0, 128] S512x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S512x2048_S1x512x2048 : S512x2048.ShapeCasts S1x512x2048
  shapeCasts_S16x2048x2048_S32768x2048 : S16x2048x2048.ShapeCasts S32768x2048
  dot_S512x2048_S256x2048_S512x256_1_1_0_0_n_n_wf : DotDims.WF S512x2048 S256x2048 S512x256 [1] [1] [0] [0] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128x2048.size a ≤ S16x2x2048x2048.size a
  hwx0_1 : ∀ i : grid0.Coords, EltTy.bits .f32 = 32 ∨ (Rect.block (s := S16x2x2048x2048) S1x2x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S16x2048x2048.size a
  hwx0_2 : ∀ i : grid0.Coords, EltTy.bits .f32 = 32 ∨ (Rect.block (s := S16x2048x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x2048 : Shape := ⟨2, ![32768, 2048]⟩
abbrev S16x4096x2048 : Shape := ⟨3, ![16, 4096, 2048]⟩
abbrev S16x2048x2048 : Shape := ⟨3, ![16, 2048, 2048]⟩
abbrev S16 : Shape := ⟨1, ![16]⟩
abbrev S16x2048x4096 : Shape := ⟨3, ![16, 2048, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x4096x2048, .f32⟩
  | .hbm, ⟨2, _⟩ => ⟨S16x2048x2048, .f32⟩
  | .hbm, ⟨3, _⟩ => ⟨S16, .i32⟩
  | .hbm, ⟨4, _⟩ => ⟨S16x2048x2048, .f32⟩
  | .hbm, ⟨5, _⟩ => ⟨S16x2048x4096, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S32768x2048_S16x2048x2048 : S32768x2048.ShapeCasts S16x2048x2048
  slices_S16x2048x4096_S16x2048x2048_0_0_0 : S16x2048x4096.Slices ![0, 0, 0] S16x2048x2048
  slices_S16x2048x4096_S16x2048x2048_0_0_2048 : S16x2048x4096.Slices ![0, 0, 2048] S16x2048x2048
  bcast_S_S16x2048x2048 : S_.BroadcastsInDim S16x2048x2048 (![] : Fin 0 → Fin S16x2048x2048.rank)
  shapeCasts_S16x2048x2048_S32768x2048 : S16x2048x2048.ShapeCasts S32768x2048
  dot_S16x2048x2048_S16x4096x2048_S16x2048x4096_2_2_1_1_0_0_wf : DotDims.WF S16x2048x2048 S16x4096x2048 S16x2048x4096 [2] [2] [1] [1] [0] [0]
  dot_S16x2048x2048_S16x2048x2048_S16x2048x2048_2_1_1_2_0_0_wf : DotDims.WF S16x2048x2048 S16x2048x2048 S16x2048x2048 [2] [1] [1] [2] [0] [0]

variable [Facts₀]

def dot_S16x2048x2048_S16x4096x2048_S16x2048x4096_2_2_1_1_0_0 : DotDims S16x2048x2048 S16x4096x2048 S16x2048x4096 where
  lhsContracting := [2]
  rhsContracting := [2]
  lhsNonContracting := [1]
  rhsNonContracting := [1]
  lhsBatch := [0]
  rhsBatch := [0]
  wf := dot_S16x2048x2048_S16x4096x2048_S16x2048x4096_2_2_1_1_0_0_wf
def dot_S16x2048x2048_S16x2048x2048_S16x2048x2048_2_1_1_2_0_0 : DotDims S16x2048x2048 S16x2048x2048 S16x2048x2048 where
  lhsContracting := [2]
  rhsContracting := [1]
  lhsNonContracting := [1]
  rhsNonContracting := [2]
  lhsBatch := [0]
  rhsBatch := [0]
  wf := dot_S16x2048x2048_S16x2048x2048_S16x2048x2048_2_1_1_2_0_0_wf

class Facts : Prop extends Facts₀ where

variable [Facts]
-- ==== Proof.Pieces.lean ====
/-
  What each kind of grid step leaves behind, as values.

  The kernel walks the hidden axis innermost. The first step of a walk clears the accumulator and then adds its contribution, so it
  leaves the step's value over zeros; a middle step leaves the step's value over what the step before left; the last step does the
  same and then copies the accumulator into the output block. Each statement below reads the stores a step performs back as one
  array: a store that covers the whole buffer decides its contents, and a load that follows a covering store reads what was stored.
  They hold for any number format; the arithmetic is only looked at later, on the extended reals.
-/
import proofs.«179969_j8830452760817_1_alg».proof.Proof.Gen.KernelIdeal.Frame
import Idealize.ShloMosaic.Lib.Pipeline.Value
import Idealize.ShloMosaic.Lib.Tactic

noncomputable section

namespace Cert.KernelIdeal.Steps

open Cert.KernelIdeal Cert.KernelIdeal.Gen Idealize.ShloMosaic Idealize.ShloMosaic.TcCoe Idealize.SL.Sem Idealize.ShloMosaic.Tactic

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- A first step: the accumulator ends at the step's value over the zeros it has just stored. -/
theorem first_acc (c : Dev nD) (i : grid0.Coords) (a3 : Memref sig .tc .vmem S1x512x2048 .f32) (h3 : a3.IsWhole) (a4 : Memref sig .tc .vmem S1x2x128x2048 .f32) (h4 : a4.IsWhole) (a5 : Memref sig .tc .vmem S1x128x2048 .f32) (h5 : a5.IsWhole) (a6 : Memref sig .tc .vmem S1x512x2048 .f32) (h6 : a6.IsWhole) (a7 : Memref sig .tc .vmem S512x2048 .f32) (h7 : a7.IsWhole) (hc0 : cond0_0 i) (hc1 : ¬cond0_1 i)
    (x0 : Vec F S1x512x2048 .f32) (x1 : Vec F S1x2x128x2048 .f32) (x2 : Vec F S1x128x2048 .f32) :
    sout0_A_0 c i a3 h3 a4 h4 a5 h5 a6 h6 a7 h7 hc0 hc1 x0 x1 x2 = k0_pay2 x0 x1 x2 k0_pay1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x2048) z2, View.readCov_unit_zero (S := S512x2048) _ z2]
  simp only [View.readAt_eq_ld, h3.read_unread, h4.read_unread, h5.read_unread, h7.read_unread,
    View.ld_unit_zero (S := S1x512x2048) z3, View.ld_unit_zero (S := S1x2x128x2048) z4, View.ld_unit_zero (S := S1x128x2048) z3,
    View.ld_unit_zero (S := S512x2048) z2]

/-- A middle step: the accumulator ends at the step's value over what it held. -/
theorem middle_acc (c : Dev nD) (i : grid0.Coords) (a3 : Memref sig .tc .vmem S1x512x2048 .f32) (h3 : a3.IsWhole) (a4 : Memref sig .tc .vmem S1x2x128x2048 .f32) (h4 : a4.IsWhole) (a5 : Memref sig .tc .vmem S1x128x2048 .f32) (h5 : a5.IsWhole) (a6 : Memref sig .tc .vmem S1x512x2048 .f32) (h6 : a6.IsWhole) (a7 : Memref sig .tc .vmem S512x2048 .f32) (h7 : a7.IsWhole) (hc0 : ¬cond0_0 i) (hc1 : ¬cond0_1 i)
    (x0 : Vec F S1x512x2048 .f32) (x1 : Vec F S1x2x128x2048 .f32) (x2 : Vec F S1x128x2048 .f32) (xs0 : Vec F S512x2048 .f32) :
    sout0_B_0 c i a3 h3 a4 h4 a5 h5 a6 h6 a7 h7 hc0 hc1 x0 x1 x2 xs0 = k0_pay2 x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero z2]
  simp only [View.readAt_eq_ld, h3.read_unread, h4.read_unread, h5.read_unread, h7.read_unread,
    View.ld_unit_zero (S := S1x512x2048) z3, View.ld_unit_zero (S := S1x2x128x2048) z4, View.ld_unit_zero (S := S1x128x2048) z3,
    View.ld_unit_zero (S := S512x2048) z2]

/-- A last step: the accumulator ends at the step's value over what it held, -/
theorem last_acc (c : Dev nD) (i : grid0.Coords) (a3 : Memref sig .tc .vmem S1x512x2048 .f32) (h3 : a3.IsWhole) (a4 : Memref sig .tc .vmem S1x2x128x2048 .f32) (h4 : a4.IsWhole) (a5 : Memref sig .tc .vmem S1x128x2048 .f32) (h5 : a5.IsWhole) (a6 : Memref sig .tc .vmem S1x512x2048 .f32) (h6 : a6.IsWhole) (a7 : Memref sig .tc .vmem S512x2048 .f32) (h7 : a7.IsWhole) (hc0 : ¬cond0_0 i) (hc1 : cond0_1 i)
    (x0 : Vec F S1x512x2048 .f32) (x1 : Vec F S1x2x128x2048 .f32) (x2 : Vec F S1x128x2048 .f32) (xs0 : Vec F S512x2048 .f32) :
    sout0_C_0 c i a3 h3 a4 h4 a5 h5 a6 h6 a7 h7 hc0 hc1 x0 x1 x2 xs0 = k0_pay2 x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero z2]
  simp only [View.readAt_eq_ld, h3.read_unread, h4.read_unread, h5.read_unread, h7.read_unread,
    View.ld_unit_zero (S := S1x512x2048) z3, View.ld_unit_zero (S := S1x2x128x2048) z4, View.ld_unit_zero (S := S1x128x2048) z3,
    View.ld_unit_zero (S := S512x2048) z2]

/-- and the output block is a copy of it. -/
theorem last_out (c : Dev nD) (i : grid0.Coords) (a3 : Memref sig .tc .vmem S1x512x2048 .f32) (h3 : a3.IsWhole) (a4 : Memref sig .tc .vmem S1x2x128x2048 .f32) (h4 : a4.IsWhole) (a5 : Memref sig .tc .vmem S1x128x2048 .f32) (h5 : a5.IsWhole) (a6 : Memref sig .tc .vmem S1x512x2048 .f32) (h6 : a6.IsWhole) (a7 : Memref sig .tc .vmem S512x2048 .f32) (h7 : a7.IsWhole) (hc0 : ¬cond0_0 i) (hc1 : cond0_1 i)
    (x0 : Vec F S1x512x2048 .f32) (x1 : Vec F S1x2x128x2048 .f32) (x2 : Vec F S1x128x2048 .f32) (xs0 : Vec F S512x2048 .f32) :
    out0_C_3 c i a3 h3 a4 h4 a5 h5 a6 h6 a7 h7 hc0 hc1 x0 x1 x2 xs0 = k0_pay3 (k0_pay2 x0 x1 x2 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero z3]
  simp only [View.readCov_unit_zero (S := S512x2048) _ z2, View.readAt_eq_ld, h3.read_unread, h4.read_unread, h5.read_unread, h7.read_unread,
    View.ld_unit_zero (S := S1x512x2048) z3, View.ld_unit_zero (S := S1x2x128x2048) z4, View.ld_unit_zero (S := S1x128x2048) z3,
    View.ld_unit_zero (S := S512x2048) z2]

end Cert.KernelIdeal.Steps

end
-- ==== Proof.LibStackDots.lean ====
/-
  Matrix products with a transposed operand, alone and over a stack, read at a row and a column.

  A matrix product accumulated into zeros, and the host's `dot_general` over a stack of matrices, are read
  on the extended reals at one output entry as the sum over the contracted coordinate `t` of the products of the
  two operands' entries. Which axis of each operand is contracted decides where `t` sits in each operand's index:
  with the left operand transposed (`Aᵀ B`) it is the left operand's ROW, `Σₜ A[t, p] · B[t, q]`; with neither
  transposed (`A B`) `Σₜ A[p, t] · B[t, q]`; with the right operand transposed (`A Bᵀ`) it is the right
  operand's COLUMN, `Σₜ A[p, t] · B[q, t]`. Over a stack the leading coordinate `g` is carried by both operands
  and the result. In each case the accumulator (if any) contributes `0`, and the sum over the one-axis contraction
  index is re-indexed by that axis's coordinate.
-/
import Idealize.ShloMosaic.PureOps.Ideal.Laws
import Idealize.ShloMosaic.Lib.ValueIdx

noncomputable section

open scoped BigOperators

namespace Idealize.ShloMosaic.StackDots

open Idealize.ShloMosaic Idealize.ShloMosaic.ValueIdx

/-! ## One matrix product into zeros -/

/-- `Aᵀ B` for a `K × M` matrix `A` and a `K × N` matrix `B` (both contracted on their rows), into zeros, at row `p`
    and column `q`, is `Σₜ A[t, p] · B[t, q]`. -/
theorem matmul_tn_zero_apply {φ₁ φ₂ : FTy} {M K N : Nat}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (p : Fin M) (q : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 p q)
      = ∑ t : Fin K, A (ix2 t p) * B (ix2 t q) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun t _ => ?_
  have c := contrEquiv1_symm_val (⟨[0], [0], [1], [1], [], [], w⟩ : DotDims ⟨2, ![K, M]⟩ ⟨2, ![K, N]⟩ ⟨2, ![M, N]⟩) K rfl rfl t
  have l : (⟨[0], [0], [1], [1], [], [], w⟩ : DotDims ⟨2, ![K, M]⟩ ⟨2, ![K, N]⟩ ⟨2, ![M, N]⟩).lhsIdx (ix2 p q)
      ((contrEquiv1 _ K rfl rfl).symm t) = ix2 t p := by
    funext ax; apply Fin.ext
    match ax with
    | ⟨0, _⟩ => simp [DotDims.lhsIdx]; exact c
    | ⟨1, _⟩ => simp [DotDims.lhsIdx]; rfl
  have r : (⟨[0], [0], [1], [1], [], [], w⟩ : DotDims ⟨2, ![K, M]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A B` for an `M × K` matrix `A` and a `K × N` matrix `B` (the left operand's columns contracted with the right
    operand's rows), into zeros, at row `p` and column `q`, is `Σₜ A[p, t] · B[t, q]`. -/
theorem matmul_nn_zero_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    FloatOps.matmul (⟨[1], [0], [0], [1], [], [], w⟩ : DotDims ⟨2, ![M, K]⟩ ⟨2, ![K, N]⟩ ⟨2, ![M, N]⟩) prec A B (constant ⟨2, ![M, N]⟩ .f32 0x00000000#32) (ix2 p q)
      = ∑ t : Fin K, A (ix2 p t) * B (ix2 t q) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A Bᵀ` for an `M × K` matrix `A` and an `N × K` matrix `B` (both contracted on their columns), into zeros, at row
    `p` and column `q`, is `Σₜ A[p, t] · B[q, t]`. -/
theorem matmul_nt_zero_apply {φ₁ φ₂ : FTy} {M K N : Nat}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec A B (constant ⟨2, ![M, N]⟩ .f32 0x00000000#32) (ix2 p q)
      = ∑ t : Fin K, A (ix2 p t) * B (ix2 q t) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun t _ => ?_
  have c := contrEquiv1_symm_val (⟨[1], [1], [0], [0], [], [], w⟩ : DotDims ⟨2, ![M, K]⟩ ⟨2, ![N, K]⟩ ⟨2, ![M, N]⟩) K rfl rfl t
  have l : (⟨[1], [1], [0], [0], [], [], w⟩ : DotDims ⟨2, ![M, K]⟩ ⟨2, ![N, K]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [1], [0], [0], [], [], w⟩ : DotDims ⟨2, ![M, K]⟩ ⟨2, ![N, K]⟩ ⟨2, ![M, N]⟩).rhsIdx (ix2 p q)
      ((contrEquiv1 _ K rfl rfl).symm t) = ix2 q t := by
    funext ax; apply Fin.ext
    match ax with
    | ⟨0, _⟩ => simp [DotDims.rhsIdx]; rfl
    | ⟨1, _⟩ => simp [DotDims.rhsIdx]; exact c
  rw [l, r]

/-! ## The product of two stacks, matrix by matrix -/

/-- `Aᵀ B` member by member, for a stack of `K × M` matrices and a stack of `K × N` matrices (batch axes 0 and 0, each
    member contracted on its rows): at member `g`, row `p` and column `q` it is `Σₜ A[g, t, p] · B[g, t, q]`. -/
theorem dotGeneral_stack_tn_apply {φ₁ φ₂ : FTy} {G M K N : Nat}
    (w : DotDims.WF ⟨3, ![G, K, M]⟩ ⟨3, ![G, K, N]⟩ ⟨3, ![G, M, N]⟩ [1] [1] [2] [2] [0] [0])
    (prec : Option ContractPrecision) (A : FVec Ideal ⟨3, ![G, K, M]⟩ φ₁) (B : FVec Ideal ⟨3, ![G, K, N]⟩ φ₂) (g : Fin G) (p : Fin M) (q : Fin N) :
    Host.dotGeneral (⟨[1], [1], [2], [2], [0], [0], w⟩ : DotDims ⟨3, ![G, K, M]⟩ ⟨3, ![G, K, N]⟩ ⟨3, ![G, M, N]⟩) prec A B (ix3 g p q)
      = ∑ t : Fin K, A (ix3 g t p) * B (ix3 g t q) := by
  show FloatOps.dotGeneral _ prec _ A B (ix3 g p q) = _
  rw [Ideal.dotGeneral_apply,
    ← Equiv.sum_comp (contrEquiv1 (⟨[1], [1], [2], [2], [0], [0], w⟩ : DotDims ⟨3, ![G, K, M]⟩ ⟨3, ![G, K, N]⟩ ⟨3, ![G, M, N]⟩) K rfl rfl).symm]
  refine Finset.sum_congr rfl fun t _ => ?_
  have c := contrEquiv1_symm_val (⟨[1], [1], [2], [2], [0], [0], w⟩ : DotDims ⟨3, ![G, K, M]⟩ ⟨3, ![G, K, N]⟩ ⟨3, ![G, M, N]⟩) K rfl rfl t
  have l : (⟨[1], [1], [2], [2], [0], [0], w⟩ : DotDims ⟨3, ![G, K, M]⟩ ⟨3, ![G, K, N]⟩ ⟨3, ![G, M, N]⟩).lhsIdx (ix3 g p q)
      ((contrEquiv1 _ K rfl rfl).symm t) = ix3 g t p := by
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  have r : (⟨[1], [1], [2], [2], [0], [0], w⟩ : DotDims ⟨3, ![G, K, M]⟩ ⟨3, ![G, K, N]⟩ ⟨3, ![G, M, N]⟩).rhsIdx (ix3 g p q)
      ((contrEquiv1 _ K rfl rfl).symm t) = ix3 g t q := by
    funext ax; apply Fin.ext
    match ax with
    | ⟨0, _⟩ => simp [DotDims.rhsIdx]; rfl
    | ⟨1, _⟩ => simp [DotDims.rhsIdx]; exact c
    | ⟨2, _⟩ => simp [DotDims.rhsIdx]; rfl
  rw [l, r]

/-- `A Bᵀ` member by member, for a stack of `M × K` matrices and a stack of `N × K` matrices (batch axes 0 and 0, each
    member contracted on its columns): at member `g`, row `p` and column `q` it is `Σₜ A[g, p, t] · B[g, q, t]`. -/
theorem dotGeneral_stack_nt_apply {φ₁ φ₂ : FTy} {G M K N : Nat}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂) (g : Fin G) (p : Fin M) (q : Fin N) :
    Host.dotGeneral (⟨[2], [2], [1], [1], [0], [0], w⟩ : DotDims ⟨3, ![G, M, K]⟩ ⟨3, ![G, N, K]⟩ ⟨3, ![G, M, N]⟩) prec A B (ix3 g p q)
      = ∑ t : Fin K, A (ix3 g p t) * B (ix3 g q t) := by
  show FloatOps.dotGeneral _ prec _ A B (ix3 g p q) = _
  rw [Ideal.dotGeneral_apply,
    ← Equiv.sum_comp (contrEquiv1 (⟨[2], [2], [1], [1], [0], [0], w⟩ : DotDims ⟨3, ![G, M, K]⟩ ⟨3, ![G, N, K]⟩ ⟨3, ![G, M, N]⟩) K rfl rfl).symm]
  refine Finset.sum_congr rfl fun t _ => ?_
  have c := contrEquiv1_symm_val (⟨[2], [2], [1], [1], [0], [0], w⟩ : DotDims ⟨3, ![G, M, K]⟩ ⟨3, ![G, N, K]⟩ ⟨3, ![G, M, N]⟩) K rfl rfl t
  have l : (⟨[2], [2], [1], [1], [0], [0], w⟩ : DotDims ⟨3, ![G, M, K]⟩ ⟨3, ![G, N, K]⟩ ⟨3, ![G, M, N]⟩).lhsIdx (ix3 g p q)
      ((contrEquiv1 _ K rfl rfl).symm t) = ix3 g p t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have r : (⟨[2], [2], [1], [1], [0], [0], w⟩ : DotDims ⟨3, ![G, M, K]⟩ ⟨3, ![G, N, K]⟩ ⟨3, ![G, M, N]⟩).rhsIdx (ix3 g p q)
      ((contrEquiv1 _ K rfl rfl).symm t) = ix3 g q t := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c
  rw [l, r]

end Idealize.ShloMosaic.StackDots

end
-- ==== Proof.Payload.lean ====
/-
  What one step of the kernel body computes, entry by entry.

  A step holds a block of 512 tokens `x`, 128 up rows and 128 gate rows of the expert's weights stacked in one block `w`
  (`w[0, 0, r, ·]` the up row, `w[0, 1, r, ·]` the gate row of hidden unit `r` of the step), and the matching 128 rows of
  the down matrix `dn`. It multiplies the tokens with the 256 stacked rows at once, so column `r` of that product is the up
  projection and column `128 + r` the gate projection of unit `r`; it forms `up · (gate · logistic gate)`, multiplies by the
  down rows, and adds the result to the accumulator `acc`. On the extended reals the narrowing to the short float format does
  nothing and a product into a zero accumulator is the plain sum of products, so at entry `(p, d)` the step adds
  `Σᵣ up p r · (gate p r · logistic (gate p r)) · dn[0, r, d]`.
-/
import proofs.«179969_j8830452760817_1_alg».proof.Proof.Gen.KernelIdeal.Skeleton
import proofs.«179969_j8830452760817_1_alg».proof.Proof.LibStackDots
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The logistic function applied to an array, at an index. -/
theorem logistic_apply {s : Shape} {φ : FTy} (a : FVec Ideal s φ) (i : s.Idx) : logistic a i = Ideal.logistic (a i) := rfl

/-- Row `r` of the 256 stacked rows is up row `r`. -/
theorem stacked_lo (w : FVec Ideal S1x2x128x2048 .f32) (h1 : S1x2x128x2048.ShapeCasts S2x128x2048)
    (h2 : S2x128x2048.ShapeCasts S256x2048) (r : Fin 128) (k : Fin 2048) :
    shapeCast S256x2048 (shapeCast S2x128x2048 w h1) h2 (ix2 (⟨r.val, by omega⟩ : Fin 256) k) = w (ix4 (0 : Fin 1) (0 : Fin 2) r k) := by
  refine (shapeCast_apply _ h2 _ (ix3 (0 : Fin 2) r k) ?_).trans (shapeCast_1abc_abc_apply w h1 0 r k)
  rw [Shape.rowMajor_val_three, Shape.rowMajor_val_two]
  show (0 * 128 + r.val) * 2048 + k.val = r.val * 2048 + k.val
  omega

/-- Row `128 + r` of the 256 stacked rows is gate row `r`. -/
theorem stacked_hi (w : FVec Ideal S1x2x128x2048 .f32) (h1 : S1x2x128x2048.ShapeCasts S2x128x2048)
    (h2 : S2x128x2048.ShapeCasts S256x2048) (r : Fin 128) (k : Fin 2048) :
    shapeCast S256x2048 (shapeCast S2x128x2048 w h1) h2 (ix2 (⟨128 + r.val, by omega⟩ : Fin 256) k) = w (ix4 (0 : Fin 1) (1 : Fin 2) r k) := by
  refine (shapeCast_apply _ h2 _ (ix3 (1 : Fin 2) r k) ?_).trans (shapeCast_1abc_abc_apply w h1 1 r k)
  rw [Shape.rowMajor_val_three, Shape.rowMajor_val_two]
  show (1 * 128 + r.val) * 2048 + k.val = (128 + r.val) * 2048 + k.val
  omega

/-- The left half of the 256 product columns, at column `r`. -/
theorem cols_lo (u : FVec Ideal S512x256 .f32) (h : S512x256.Slices ![0, 0] S512x128) (p : Fin 512) (r : Fin 128) :
    extractStridedSlice S512x128 ![0, 0] u h (ix2 p r) = u (ix2 p (⟨r.val, by omega⟩ : Fin 256)) :=
  slice2_axis1_apply 0 u h p r _ (Nat.zero_add _).symm

/-- The right half of the 256 product columns, at column `r`. -/
theorem cols_hi (u : FVec Ideal S512x256 .f32) (h : S512x256.Slices ![0, 128] S512x128) (p : Fin 512) (r : Fin 128) :
    extractStridedSlice S512x128 ![0, 128] u h (ix2 p r) = u (ix2 p (⟨128 + r.val, by omega⟩ : Fin 256)) :=
  slice2_axis1_apply 128 u h p r _ rfl

/-- Tokens against the stacked rows, both contracted along the feature axis, into zeros. -/
theorem firstDot (a : FVec Ideal S512x2048 .bf16) (b : FVec Ideal S256x2048 .bf16) (p : Fin 512) (q : Fin 256) :
    matmul dot_S512x2048_S256x2048_S512x256_1_1_0_0_n_n none a b (constant (F := Ideal) S512x256 .f32 0x00000000#32) (ix2 p q)
      = ∑ k : Fin 2048, a (ix2 p k) * b (ix2 q k) :=
  StackDots.matmul_nt_zero_apply _ none a b p q

/-- Activations against the down rows, into zeros. -/
theorem secondDot (a : FVec Ideal S512x128 .bf16) (b : FVec Ideal S128x2048 .bf16) (p : Fin 512) (d : Fin 2048) :
    matmul dot_S512x128_S128x2048_S512x2048_1_0_0_1_n_n none a b (constant (F := Ideal) S512x2048 .f32 0x00000000#32) (ix2 p d)
      = ∑ r : Fin 128, a (ix2 p r) * b (ix2 r d) :=
  StackDots.matmul_nn_zero_apply _ none a b p d

variable (x : FVec Ideal S1x512x2048 .f32) (w : FVec Ideal S1x2x128x2048 .f32) (dn : FVec Ideal S1x128x2048 .f32)
  (acc : FVec Ideal S512x2048 .f32)

/-- Token `p` of the block against row `r` of the up rows (`s = 0`) or of the gate rows (`s = 1`) of the block. -/
def rowDot (p : Fin 512) (s : Fin 2) (r : Fin 128) : EReal :=
  ∑ k : Fin 2048, x (ix3 (0 : Fin 1) p k) * w (ix4 (0 : Fin 1) s r k)

/-- The accumulating store's value at `(p, d)`: the accumulator plus the step's 128 terms. -/
theorem step_apply (p : Fin 512) (d : Fin 2048) :
    k0_pay2 (F := Ideal) x w dn acc (ix2 p d)
      = acc (ix2 p d) + ∑ r : Fin 128,
          (rowDot x w p 0 r * (rowDot x w p 1 r * Ideal.logistic (rowDot x w p 1 r))) * dn (ix3 (0 : Fin 1) r d) := by
  unfold k0_pay2
  rw [shapeCast_self, addf_apply]
  refine congrArg (acc (ix2 p d) + ·) ?_
  refine (secondDot _ _ p d).trans (Finset.sum_congr rfl fun r _ => ?_)
  rw [truncf_apply, truncf_apply, mulf_apply, mulf_apply, logistic_apply, shapeCast_1ab_ab_apply, cols_lo, cols_hi,
    firstDot, firstDot]
  simp only [truncf_apply, shapeCast_1ab_ab_apply, stacked_lo, stacked_hi]
  rfl

/-- The reset stores zeros. -/
theorem reset_apply (i : S512x2048.Idx) : k0_pay1 (F := Ideal) i = 0 := by
  unfold k0_pay1
  rw [shapeCast_self]
  exact Ideal.ofBits_zero_f32

/-- The output store writes the accumulator, with a leading unit axis. -/
theorem emit_apply (v : FVec Ideal S512x2048 .f32) (u : Fin 1) (p : Fin 512) (d : Fin 2048) :
    k0_pay3 (F := Ideal) v (ix3 u p d) = v (ix2 p d) := by
  unfold k0_pay3
  exact shapeCast_ab_1ab_apply v _ u p d

end Cert.KernelIdeal.Body

end
-- ==== Proof.Blocks.lean ====
/-
  Where each block of a grid step sits in the arrays.

  The grid has 16 · 4 · 16 steps; step number `64 e + 16 c + h` works on expert `e`, on the `c`-th run of 512 of that expert's
  2048 tokens, and on the `h`-th run of 128 of the 2048 hidden units. Its token block is rows `512 c …` of expert `e`'s tokens; its
  weight block holds up rows and gate rows `128 h …` of expert `e`; its down block holds rows `128 h …` of expert `e`'s down matrix.
  Before the steps run the flat token matrix is regrouped by expert, which is kept as it is, and the 4096 weight rows of each
  expert are regrouped as two halves of 2048: half `s`, row `j` is row `2048 s + j`.
-/
import proofs.«179969_j8830452760817_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The three float arguments as launched. -/
abbrev xArg (c : Dev nD) : FVec Ideal S32768x2048 .f32 := m ((c : Thread nD τ).loc main_arg0)
abbrev wArg (c : Dev nD) : FVec Ideal S16x4096x2048 .f32 := m ((c : Thread nD τ).loc main_arg1)
abbrev dArg (c : Dev nD) : FVec Ideal S16x2048x2048 .f32 := m ((c : Thread nD τ).loc main_arg2)
/-- The tokens regrouped by expert. -/
abbrev grouped (c : Dev nD) : FVec Ideal S16x2048x2048 .f32 :=
  shapeCast S16x2048x2048 (xArg m c) shapeCasts_S32768x2048_S16x2048x2048

/-- The three input blocks of a step. -/
abbrev tokBlk (c : Dev nD) (t : Fin cfg0.N) : FVec Ideal S1x512x2048 .f32 := iblk m c 0 t
abbrev wBlk (c : Dev nD) (t : Fin cfg0.N) : FVec Ideal S1x2x128x2048 .f32 := iblk m c 1 t
abbrev dBlk (c : Dev nD) (t : Fin cfg0.N) : FVec Ideal S1x128x2048 .f32 := iblk m c 2 t

/-! ## Which block a step takes -/

theorem where_tok : ∀ t : Fin cfg0.N, win0_0.index t (0 : Fin 3) = t.val / 64 ∧ win0_0.index t (1 : Fin 3) = t.val / 16 % 4
    ∧ win0_0.index t (2 : Fin 3) = 0 :=
  (by decide +kernel : ∀ t : Fin grid0.N, _)

theorem where_w : ∀ t : Fin cfg0.N, win0_1.index t (0 : Fin 4) = t.val / 64 ∧ win0_1.index t (1 : Fin 4) = 0
    ∧ win0_1.index t (2 : Fin 4) = t.val % 16 ∧ win0_1.index t (3 : Fin 4) = 0 :=
  (by decide +kernel : ∀ t : Fin grid0.N, _)

theorem where_d : ∀ t : Fin cfg0.N, win0_2.index t (0 : Fin 3) = t.val / 64 ∧ win0_2.index t (1 : Fin 3) = t.val % 16
    ∧ win0_2.index t (2 : Fin 3) = 0 :=
  (by decide +kernel : ∀ t : Fin grid0.N, _)

theorem where_out : ∀ t : Fin cfg0.N, win0_3.index t (0 : Fin 3) = t.val / 64 ∧ win0_3.index t (1 : Fin 3) = t.val / 16 % 4
    ∧ win0_3.index t (2 : Fin 3) = 0 :=
  (by decide +kernel : ∀ t : Fin grid0.N, _)

/-! ## The arrays as the steps find them -/

theorem entry_tok (c : Dev nD) : (V m c main_v0 : FVec Ideal S16x2048x2048 .f32) = grouped m c := by
  show StableHlo.after hostOps0 (fun b => m (c, b)) (Proc.devRef .tc main_v0) = _
  after_results
  rfl

theorem entry_w (c : Dev nD) : (V m c main_v1 : FVec Ideal S16x2x2048x2048 .f32)
    = shapeCast S16x2x2048x2048 (wArg m c) shapeCasts_S16x4096x2048_S16x2x2048x2048 := by
  show StableHlo.after hostOps0 (fun b => m (c, b)) (Proc.devRef .tc main_v1) = _
  after_results
  rfl

/-- Half `s`, row `j` of expert `e` is row `2048 s + j` of its 4096. -/
theorem entry_w_apply (c : Dev nD) (e : Fin 16) (s : Fin 2) (j : Fin 2048) (k : Fin 2048) :
    (V m c main_v1 : FVec Ideal S16x2x2048x2048 .f32) (ix4 e s j k)
      = wArg m c (ix3 e (⟨2048 * s.val + j.val, by omega⟩ : Fin 4096) k) := by
  rw [entry_w]
  refine shapeCast_apply _ _ _ _ ?_
  rw [Shape.rowMajor_val_three, Shape.rowMajor_val_four]
  show (e.val * 4096 + (2048 * s.val + j.val)) * 2048 + k.val = ((e.val * 2 + s.val) * 2048 + j.val) * 2048 + k.val
  omega

/-! ## The blocks, entry by entry -/

section
variable (c : Dev nD) (t : Fin cfg0.N) (e : Fin 16) (cc : Fin 4) (hh : Fin 16)
  (ht : t.val = 64 * e.val + 16 * cc.val + hh.val)
include ht

/-- Token `p` of the step's block is token `512 c + p` of expert `e`. -/
theorem tokBlk_apply (u : Fin 1) (p : Fin 512) (k : Fin 2048) :
    tokBlk m c t (ix3 u p k) = grouped m c (ix3 e (⟨512 * cc.val + p.val, by omega⟩ : Fin 2048) k) := by
  refine Eq.trans ?_ (congrFun (entry_tok m c) _)
  show V m c main_v0 (((cfg0.win 0).blk t).view.emb (ix3 u p k)) = V m c main_v0 _
  congr 1
  funext a; apply Fin.ext
  obtain ⟨i0, i1, i2⟩ := where_tok t
  match a with
  | ⟨0, _⟩ => show win0_0.index t (0 : Fin 3) * 1 + 1 * u.val = e.val; omega
  | ⟨1, _⟩ => show win0_0.index t (1 : Fin 3) * 512 + 1 * p.val = 512 * cc.val + p.val; omega
  | ⟨2, _⟩ => show win0_0.index t (2 : Fin 3) * 2048 + 1 * k.val = k.val; omega

/-- Row `r` of half `s` of the step's weight block is row `2048 s + 128 h + r` of expert `e`. -/
theorem wBlk_apply (u : Fin 1) (s : Fin 2) (r : Fin 128) (k : Fin 2048) :
    wBlk m c t (ix4 u s r k) = wArg m c (ix3 e (⟨2048 * s.val + (128 * hh.val + r.val), by omega⟩ : Fin 4096) k) := by
  refine Eq.trans ?_ (entry_w_apply m c e s (⟨128 * hh.val + r.val, by omega⟩ : Fin 2048) k)
  show V m c main_v1 (((cfg0.win 1).blk t).view.emb (ix4 u s r k)) = V m c main_v1 _
  congr 1
  funext a; apply Fin.ext
  obtain ⟨i0, i1, i2, i3⟩ := where_w t
  match a with
  | ⟨0, _⟩ => show win0_1.index t (0 : Fin 4) * 1 + 1 * u.val = e.val; omega
  | ⟨1, _⟩ => show win0_1.index t (1 : Fin 4) * 2 + 1 * s.val = s.val; omega
  | ⟨2, _⟩ => show win0_1.index t (2 : Fin 4) * 128 + 1 * r.val = 128 * hh.val + r.val; omega
  | ⟨3, _⟩ => show win0_1.index t (3 : Fin 4) * 2048 + 1 * k.val = k.val; omega

/-- Row `r` of the step's down block is row `128 h + r` of expert `e`'s down matrix. -/
theorem dBlk_apply (u : Fin 1) (r : Fin 128) (d : Fin 2048) :
    dBlk m c t (ix3 u r d) = dArg m c (ix3 e (⟨128 * hh.val + r.val, by omega⟩ : Fin 2048) d) := by
  refine Eq.trans ?_ (congrFun (V_main_arg2 m c) _)
  show V m c main_arg2 (((cfg0.win 2).blk t).view.emb (ix3 u r d)) = V m c main_arg2 _
  congr 1
  funext a; apply Fin.ext
  obtain ⟨i0, i1, i2⟩ := where_d t
  match a with
  | ⟨0, _⟩ => show win0_2.index t (0 : Fin 3) * 1 + 1 * u.val = e.val; omega
  | ⟨1, _⟩ => show win0_2.index t (1 : Fin 3) * 128 + 1 * r.val = 128 * hh.val + r.val; omega
  | ⟨2, _⟩ => show win0_2.index t (2 : Fin 3) * 2048 + 1 * d.val = d.val; omega

end

end Cert.KernelIdeal.Blocks

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.Spec.lean ====
/-
  What the grouped expert layer computes, as one function of three arrays.

  The tokens come grouped by expert: `X[e, t, ·]` is token `t` of expert `e`. Expert `e` owns a weight matrix `W[e, ·, ·]` of
  4096 rows, the first 2048 the "up" rows and the last 2048 the "gate" rows, and a down matrix `D[e, ·, ·]`. A token is
  projected on every row, `proj = Σₖ X[e, t, k] · W[e, h, k]`; hidden unit `j` is the up projection times the gate projection
  passed through `g ↦ g · logistic g`; and output feature `d` is `Σⱼ hidden j · D[e, j, d]`.

  The second half is the only algebra the comparison needs. A kernel that walks the hidden axis in 16 runs of 128 units,
  starting from zero and adding each run's sum to what it holds, holds after run `b` the sum of the first `128 · (b + 1)`
  terms of the column, hence the whole column after the last run. Only commutativity and associativity of the addition of
  extended reals are used, so no term needs to be finite.
-/
import Idealize.ShloMosaic.PureOps.Ideal.Laws
import Idealize.ShloMosaic.Lib.ValueIdx
import proofs.«179969_j8830452760817_1_alg».proof.Proof.LibRunSums

noncomputable section

open scoped BigOperators

namespace Cert.Experts

open Idealize.ShloMosaic Idealize.ShloMosaic.ValueIdx

/-- Tokens by expert, `[expert, token, feature]`; the down matrices `[expert, hidden, feature]` have the same shape. -/
abbrev Tok : Shape := ⟨3, ![16, 2048, 2048]⟩
/-- The up and gate rows of every expert, `[expert, row, feature]`. -/
abbrev Wts : Shape := ⟨3, ![16, 4096, 2048]⟩

/-- Hidden unit `j`'s up row. -/
def upRow (j : Fin 2048) : Fin 4096 := ⟨j.val, by omega⟩
/-- Hidden unit `j`'s gate row: the second half of the 4096. -/
def gateRow (j : Fin 2048) : Fin 4096 := ⟨2048 + j.val, by omega⟩

variable (X : Tok.Idx → EReal) (W : Wts.Idx → EReal) (D : Tok.Idx → EReal)

/-- Token `t` of expert `e` against row `h` of that expert's weights. -/
def proj (e : Fin 16) (t : Fin 2048) (h : Fin 4096) : EReal :=
  ∑ k : Fin 2048, X (ix3 e t k) * W (ix3 e h k)

/-- Hidden unit `j`: the up projection times the gated gate projection. -/
def hidden (e : Fin 16) (t : Fin 2048) (j : Fin 2048) : EReal :=
  proj X W e t (upRow j) * (proj X W e t (gateRow j) * Ideal.logistic (proj X W e t (gateRow j)))

/-- Output feature `d` of token `t` of expert `e`. -/
def out (e : Fin 16) (t : Fin 2048) (d : Fin 2048) : EReal :=
  ∑ j : Fin 2048, hidden X W e t j * D (ix3 e j d)

/-- The layer's result, still grouped by expert. -/
def result : Tok.Idx → EReal := fun i => out X W D (i 0) (i 1) (i 2)

/-- The whole layer on a flat token matrix: tokens are regrouped by expert (2048 consecutive rows each), the grouped result is
    computed, and the rows are laid flat again. Both regroupings are the same re-reading of a row-major array; nothing
    here needs to know which row goes where. -/
def layer (Xflat : (⟨2, ![32768, 2048]⟩ : Shape).Idx → EReal)
    (hin : (⟨2, ![32768, 2048]⟩ : Shape).ShapeCasts Tok) (hout : Tok.ShapeCasts ⟨2, ![32768, 2048]⟩) :
    (⟨2, ![32768, 2048]⟩ : Shape).Idx → EReal :=
  shapeCast ⟨2, ![32768, 2048]⟩ (result (shapeCast Tok Xflat hin) W D) hout

/-! ## The hidden axis walked in runs -/

/-- Term `j` of an output entry's column, by position (nothing beyond the 2048 hidden units). -/
def term (e : Fin 16) (t : Fin 2048) (d : Fin 2048) (j : ℕ) : EReal :=
  if h : j < 2048 then hidden X W e t ⟨j, h⟩ * D (ix3 e ⟨j, h⟩ d) else 0

theorem term_of_lt (e : Fin 16) (t : Fin 2048) (d : Fin 2048) (j : ℕ) (h : j < 2048) :
    term X W D e t d j = hidden X W e t ⟨j, h⟩ * D (ix3 e ⟨j, h⟩ d) := dif_pos h

/-- The first `n` terms of the column. -/
def firstTerms (e : Fin 16) (t : Fin 2048) (d : Fin 2048) (n : ℕ) : EReal :=
  ∑ j ∈ Finset.range n, term X W D e t d j

/-- Before the first run nothing has been added. -/
theorem firstTerms_none (e : Fin 16) (t : Fin 2048) (d : Fin 2048) : firstTerms X W D e t d (128 * 0) = 0 := by
  unfold firstTerms; rw [Nat.mul_zero, Finset.sum_range_zero]

/-- Adding run `b` to the first `b` runs gives the first `b + 1` runs. -/
theorem firstTerms_next (e : Fin 16) (t : Fin 2048) (d : Fin 2048) (b : ℕ) :
    firstTerms X W D e t d (128 * b) + ∑ r : Fin 128, term X W D e t d (128 * b + r.val)
      = firstTerms X W D e t d (128 * (b + 1)) :=
  Cert.RunSums.add_next_run 128 (term X W D e t d) b

/-- All sixteen runs are the whole column. -/
theorem firstTerms_all (e : Fin 16) (t : Fin 2048) (d : Fin 2048) :
    firstTerms X W D e t d (128 * 16) = out X W D e t d := by
  unfold firstTerms out
  rw [show 128 * 16 = 2048 from rfl, Cert.RunSums.whole_column]
  exact Finset.sum_congr rfl fun j _ => term_of_lt X W D e t d j.val j.isLt

end Cert.Experts

end
-- ==== Proof.Accum.lean ====
/-
  The accumulator along a walk of the hidden axis.

  Step `64 e + 16 c + h` adds to the accumulator, at entry `(p, d)`, the terms `128 h … 128 h + 127` of the column of output entry
  `(e, 512 c + p, d)`: its token block, weight block and down block are exactly the rows those terms are made of. The first step of
  a walk starts from the zeros it stores, every later step from what the step before left. So after step `h` of a walk the
  accumulator holds the first `128 (h + 1)` terms of each of its columns — by induction on the step number, one step at a time —
  and the last step copies the finished accumulator into the output block.
-/
import proofs.«179969_j8830452760817_1_alg».proof.Proof.Pieces
import proofs.«179969_j8830452760817_1_alg».proof.Proof.Payload
import proofs.«179969_j8830452760817_1_alg».proof.Proof.Blocks
import proofs.«179969_j8830452760817_1_alg».proof.Proof.Spec

noncomputable section

open scoped BigOperators

namespace Cert.KernelIdeal.Walk

open Cert.KernelIdeal Cert.KernelIdeal.Gen Idealize.ShloMosaic Idealize.ShloMosaic.TcCoe Idealize.SL.Sem
open Idealize.ShloMosaic.ValueIdx
open Cert.KernelIdeal.Blocks Cert.KernelIdeal.Body Cert.KernelIdeal.Steps Cert.Experts

variable (m : (ℓ : Loc nD τ sig) → Buf (Elt Ideal) ℓ)

/-- Row `j` of the first half of an expert's 4096 rows is hidden unit `j`'s up row, -/
theorem half0_row (j : ℕ) (hj : j < 2048) (h' : 2048 * (0 : Fin 2).val + j < 4096) :
    (⟨2048 * (0 : Fin 2).val + j, h'⟩ : Fin 4096) = upRow ⟨j, hj⟩ :=
  Fin.ext (by show 2048 * 0 + j = j; omega)

/-- and row `j` of the second half its gate row. -/
theorem half1_row (j : ℕ) (hj : j < 2048) (h' : 2048 * (1 : Fin 2).val + j < 4096) :
    (⟨2048 * (1 : Fin 2).val + j, h'⟩ : Fin 4096) = gateRow ⟨j, hj⟩ :=
  Fin.ext (by show 2048 * 1 + j = 2048 + j; omega)

section
variable (c : Dev nD) (t : Fin cfg0.N) (e : Fin 16) (cc : Fin 4) (hh : Fin 16)
  (ht : t.val = 64 * e.val + 16 * cc.val + hh.val)
include ht

/-- The block's token `p` against the block's up rows (`s = 0`) or gate rows (`s = 1`) is the projection of token `512 c + p` of
    expert `e` on row `2048 s + 128 h + r`. -/
theorem rowDot_eq (p : Fin 512) (s : Fin 2) (r : Fin 128) :
    rowDot (tokBlk m c t) (wBlk m c t) p s r
      = proj (grouped m c) (wArg m c) e (⟨512 * cc.val + p.val, by omega⟩ : Fin 2048)
          (⟨2048 * s.val + (128 * hh.val + r.val), by omega⟩ : Fin 4096) := by
  unfold rowDot proj
  refine Finset.sum_congr rfl fun k _ => ?_
  rw [tokBlk_apply m c t e cc hh ht, wBlk_apply m c t e cc hh ht]

/-- The 128 terms a step adds at `(p, d)` are terms `128 h …` of the column of `(e, 512 c + p, d)`. -/
theorem step_terms (p : Fin 512) (d : Fin 2048) :
    ∑ r : Fin 128, (rowDot (tokBlk m c t) (wBlk m c t) p 0 r
        * (rowDot (tokBlk m c t) (wBlk m c t) p 1 r * Ideal.logistic (rowDot (tokBlk m c t) (wBlk m c t) p 1 r)))
        * dBlk m c t (ix3 (0 : Fin 1) r d)
      = ∑ r : Fin 128, term (grouped m c) (wArg m c) (dArg m c) e (⟨512 * cc.val + p.val, by omega⟩ : Fin 2048) d
          (128 * hh.val + r.val) := by
  refine Finset.sum_congr rfl fun r _ => ?_
  have hj : 128 * hh.val + r.val < 2048 := by omega
  rw [term_of_lt _ _ _ _ _ _ _ hj, rowDot_eq m c t e cc hh ht, rowDot_eq m c t e cc hh ht, dBlk_apply m c t e cc hh ht,
    half0_row _ hj, half1_row _ hj]
  rfl

/-- A first step leaves the first 128 terms. -/
theorem first_step (h0 : t.val % 16 = 0) (p : Fin 512) (d : Fin 2048) :
    ((outsAt0 m c t.val t.isLt).2 : FVec Ideal S512x2048 .f32) (ix2 p d)
      = firstTerms (grouped m c) (wArg m c) (dArg m c) e (⟨512 * cc.val + p.val, by omega⟩ : Fin 2048) d (128 * (hh.val + 1)) := by
  have h1 : ¬t.val % 16 = 15 := by omega
  have hz : hh.val = 0 := by omega
  have e2 : (outsAt0 m c t.val t.isLt).2 = k0_pay2 (F := Ideal) (tokBlk m c t) (wBlk m c t) (dBlk m c t) (k0_pay1 (F := Ideal)) := by
    rw [outsAt0_A m c t h0 h1]
    dsimp only
    exact first_acc (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)
  rw [e2, step_apply, reset_apply, step_terms m c t e cc hh ht, ← firstTerms_next]
  congr 1
  rw [hz]
  exact (firstTerms_none _ _ _ _ _ _).symm

/-- A later step adds its 128 terms to what the step before left. -/
theorem later_step (h0 : ¬t.val % 16 = 0)
    (before : ∀ (p : Fin 512) (d : Fin 2048), ((outsAt0 m c (t.val - 1) (Nat.lt_of_le_of_lt (Nat.sub_le _ _) t.isLt)).2 : FVec Ideal S512x2048 .f32) (ix2 p d)
      = firstTerms (grouped m c) (wArg m c) (dArg m c) e (⟨512 * cc.val + p.val, by omega⟩ : Fin 2048) d (128 * hh.val))
    (p : Fin 512) (d : Fin 2048) :
    ((outsAt0 m c t.val t.isLt).2 : FVec Ideal S512x2048 .f32) (ix2 p d)
      = firstTerms (grouped m c) (wArg m c) (dArg m c) e (⟨512 * cc.val + p.val, by omega⟩ : Fin 2048) d (128 * (hh.val + 1)) := by
  have e2 : (outsAt0 m c t.val t.isLt).2 = k0_pay2 (F := Ideal) (tokBlk m c t) (wBlk m c t) (dBlk m c t) (outsAt0 m c (t.val - 1) (Nat.lt_of_le_of_lt (Nat.sub_le _ _) t.isLt)).2 := by
    by_cases h1 : t.val % 16 = 15
    · rw [outsAt0_C m c t h0 h1]
      dsimp only
      exact last_acc (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
    · rw [outsAt0_B m c t h0 h1]
      dsimp only
      exact middle_acc (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2
  rw [e2, step_apply, before p d, step_terms m c t e cc hh ht, firstTerms_next]

end

/-- After step `64 e + 16 c + h` the accumulator holds, at `(p, d)`, the first `128 (h + 1)` terms of the column of `(e, 512 c + p, d)`. -/
theorem acc_after (c : Dev nD) : ∀ (n : ℕ) (hn : n < cfg0.N) (e : Fin 16) (cc : Fin 4) (hh : Fin 16),
    n = 64 * e.val + 16 * cc.val + hh.val → ∀ (p : Fin 512) (d : Fin 2048),
    ((outsAt0 m c n hn).2 : FVec Ideal S512x2048 .f32) (ix2 p d)
      = firstTerms (grouped m c) (wArg m c) (dArg m c) e (⟨512 * cc.val + p.val, by omega⟩ : Fin 2048) d (128 * (hh.val + 1)) := by
  intro n
  induction n with
  | zero =>
    intro hn e cc hh ht p d
    exact first_step m c ⟨0, hn⟩ e cc hh ht (Nat.zero_mod _) p d
  | succ n ih =>
    intro hn e cc hh ht p d
    by_cases h0 : (n + 1) % 16 = 0
    · exact first_step m c ⟨n + 1, hn⟩ e cc hh ht h0 p d
    · have hpos : 0 < hh.val := by omega
      refine later_step m c ⟨n + 1, hn⟩ e cc hh ht h0 (fun p d => ?_) p d
      have hprev := ih (Nat.lt_of_succ_lt hn) e cc (⟨hh.val - 1, by omega⟩ : Fin 16) (by show n = 64 * e.val + 16 * cc.val + (hh.val - 1); omega) p d
      rw [show (⟨hh.val - 1, by omega⟩ : Fin 16).val + 1 = hh.val from by show hh.val - 1 + 1 = hh.val; omega] at hprev
      exact hprev

/-- The last step of a walk copies the finished accumulator into the output block. -/
theorem out_is_acc (c : Dev nD) (t : Fin cfg0.N) (h15 : t.val % 16 = 15) :
    (outsAt0 m c t.val t.isLt).1 = k0_pay3 (F := Ideal) (outsAt0 m c t.val t.isLt).2 := by
  have h0 : ¬t.val % 16 = 0 := by omega
  rw [outsAt0_C m c t h0 h15]
  dsimp only
  refine (last_out (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2).trans ?_
  exact congrArg k0_pay3 (last_acc (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2).symm

end Cert.KernelIdeal.Walk

end
-- ==== Proof.KernelRun.lean ====
/-
  The kernel's result, read off its run.

  Only the last step of a walk writes its output block back, and by then the accumulator holds all 2048 terms of each of its
  columns, so the block written back is rows `512 c …` of expert `e` of the grouped result. Those blocks, one per expert and per
  run of 512 tokens, tile the grouped result array, so after the last step the array is the grouped result everywhere. The host
  line after the kernel lays its rows flat again.
-/
import proofs.«179969_j8830452760817_1_alg».proof.Proof.Accum

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks Cert.KernelIdeal.Body Cert.KernelIdeal.Walk Cert.Experts

variable (m : (ℓ : Loc nD τ sig) → Buf (Elt Ideal) ℓ) (ρ : Dev nD → PrngReg)

/-- The grouped result of the three float arguments as launched. -/
abbrev target (c : Dev nD) : FVec Ideal S16x2048x2048 .f32 := result (grouped m c) (wArg m c) (dArg m c)

/-- What a write-back writes: rows `512 c …` of expert `e` of the grouped result. -/
theorem wrote (c : Dev nD) (t : Fin cfg0.N) (hf : (cfg0.win 3).flush t = true) :
    (dats m 0 c).flushed 3 t = ((cfg0.win 3).blk t).view.read (Elt Ideal) (target m c) := by
  have h15 : t.val % 16 = 15 := (flush0_3 t).mp hf
  have hN : t.val < 1024 := lt_of_lt_of_eq t.isLt (show cfg0.N = 1024 from N_0)
  show (cfg0.win 3).cut (grid0.coords t) ((dats m 0 c).after 3 t) = _
  rw [after0_3, out_is_acc m c t h15]
  funext j
  obtain ⟨u, p, d, rfl⟩ : ∃ (u : Fin 1) (p : Fin 512) (d : Fin 2048), j = ix3 u p d :=
    ⟨j 0, j 1, j 2, @eq_ix3 1 512 2048 j⟩
  have ht : t.val = 64 * (⟨t.val / 64, by omega⟩ : Fin 16).val + 16 * (⟨t.val / 16 % 4, by omega⟩ : Fin 4).val
      + (⟨15, by omega⟩ : Fin 16).val := by
    show t.val = 64 * (t.val / 64) + 16 * (t.val / 16 % 4) + 15; omega
  have hemb : ((cfg0.win 3).blk t).view.emb (ix3 u p d)
      = ix3 (⟨t.val / 64, by omega⟩ : Fin 16) (⟨512 * (t.val / 16 % 4) + p.val, by omega⟩ : Fin 2048) d := by
    funext a; apply Fin.ext
    obtain ⟨i0, i1, i2⟩ := where_out t
    match a with
    | ⟨0, _⟩ => show win0_3.index t (0 : Fin 3) * 1 + 1 * u.val = t.val / 64; omega
    | ⟨1, _⟩ => show win0_3.index t (1 : Fin 3) * 512 + 1 * p.val = 512 * (t.val / 16 % 4) + p.val; omega
    | ⟨2, _⟩ => show win0_3.index t (2 : Fin 3) * 2048 + 1 * d.val = d.val; omega
  show k0_pay3 (F := Ideal) (outsAt0 m c t.val t.isLt).2 (ix3 u p d) = target m c (((cfg0.win 3).blk t).view.emb (ix3 u p d))
  rw [hemb, emit_apply, acc_after m c t.val t.isLt _ _ _ ht p d]
  exact firstTerms_all _ _ _ _ _ _

/-- An index of the grouped result array lies in a step's output block when each coordinate lies in the block's range. -/
theorem mem_out_blk (t : Fin cfg0.N) (i : S16x2048x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v2).slice (win0_3.rect t)).set ↔ _
  rw [View.set_slice_whole, Rect.mem_set_unit]
  exact Iff.rfl

/-- After the last step the kernel's result array is the grouped result: entry `(e, tok, d)` was written back by the last step
    of the walk of expert `e` and token run `tok / 512`. -/
theorem final_grouped (c : Dev nD) : (dats m 0 c).arrAt 3 cfg0.N = target m c :=
  (dats m 0 c).arrAt_eq_of_cover 3 (target m c) (wrote m c) fun i => by
    have h0 : (i 0).val < 16 := (i 0).isLt
    have h1 : (i 1).val < 2048 := (i 1).isLt
    have h2 : (i 2).val < 2048 := (i 2).isLt
    have hN : cfg0.N = 1024 := N_0
    have hlt : 64 * (i 0).val + 16 * ((i 1).val / 512) + 15 < cfg0.N := by rw [hN]; omega
    refine ⟨⟨64 * (i 0).val + 16 * ((i 1).val / 512) + 15, hlt⟩, (flush0_3 _).mpr (by
      show (64 * (i 0).val + 16 * ((i 1).val / 512) + 15) % 16 = 15; omega), ?_⟩
    rw [mem_out_blk]
    obtain ⟨q0, q1, q2⟩ := where_out ⟨64 * (i 0).val + 16 * ((i 1).val / 512) + 15, hlt⟩
    have q0' : win0_3.index ⟨64 * (i 0).val + 16 * ((i 1).val / 512) + 15, hlt⟩ (0 : Fin 3) = (i 0).val := by
      rw [q0]; show (64 * (i 0).val + 16 * ((i 1).val / 512) + 15) / 64 = (i 0).val; omega
    have q1' : win0_3.index ⟨64 * (i 0).val + 16 * ((i 1).val / 512) + 15, hlt⟩ (1 : Fin 3) = (i 1).val / 512 := by
      rw [q1]; show (64 * (i 0).val + 16 * ((i 1).val / 512) + 15) / 16 % 4 = (i 1).val / 512; omega
    intro a
    match a with
    | ⟨0, _⟩ =>
      show win0_3.index _ (0 : Fin 3) * 1 ≤ (i 0).val ∧ (i 0).val < win0_3.index _ (0 : Fin 3) * 1 + 1
      rw [q0']; omega
    | ⟨1, _⟩ =>
      show win0_3.index _ (1 : Fin 3) * 512 ≤ (i 1).val ∧ (i 1).val < win0_3.index _ (1 : Fin 3) * 512 + 512
      rw [q1']; omega
    | ⟨2, _⟩ =>
      show win0_3.index _ (2 : Fin 3) * 2048 ≤ (i 2).val ∧ (i 2).val < win0_3.index _ (2 : Fin 3) * 2048 + 2048
      rw [q2]; omega

/-- The host line after the kernel lays the grouped result's rows flat: the whole layer of the launched arguments. -/
theorem flat_result (c : Dev nD) : Pipeline.afterTail₀ cfgs (dats m) 0 (V0 m) [hostOps1] c main_v3
    = layer (wArg m c) (dArg m c) (xArg m c) shapeCasts_S32768x2048_S16x2048x2048 shapeCasts_S16x2048x2048_S32768x2048 := by
  unfold Pipeline.afterTail₀
  show StableHlo.after hostOps1 _ (Proc.devRef .tc main_v3) = _
  after_results
  have hw := (Pipeline.withArrays_arr spec0 launch0.win.arr_inj c (V0 m c) (fun w => (dats m 0 c).arrAt w cfg0.N) 3).trans
    (final_grouped m c)
  funext i
  exact congrFun (congrArg (fun z : FVec Ideal S16x2048x2048 .f32 =>
    shapeCast S32768x2048 z shapeCasts_S16x2048x2048_S32768x2048) hw) i

/-- The run, read: the flat result array holds the layer of the launched arguments, and the arguments are as launched. -/
theorem run : θ_run defs (onTc (τ := τ) (main (F := Ideal))) ⟨m, fun _ => 0, ρ⟩ fun r => ∀ c : Dev nD,
      r.2.mem ((c.tc : Thread nD τ).loc main_v3)
        = layer (wArg m c) (dArg m c) (xArg m c) shapeCasts_S32768x2048_S16x2048x2048 shapeCasts_S16x2048x2048_S32768x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (flat_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference program computes the layer of `Spec.lean`.

  Its sixteen host operations are read one at a time: the stacked product of the grouped tokens with every weight row is the
  projection `proj`; its two halves along the row axis are the up and the gate projections; the called activation spells the
  logistic function as `1 / (1 + exp (-g))`, which on the extended reals is the logistic function itself, so the product with
  `g` and with the up half is `hidden`; the second stacked product is the sum over the hidden units against the down matrix.
  The regrouping of the tokens before and of the rows after stay as they are: the kernel performs the same two.
-/
import proofs.«179969_j8830452760817_1_alg».proof.Proof.Gen.ReferenceIdeal.Read
import proofs.«179969_j8830452760817_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

/-- The word `0x3F800000` is the number one. -/
theorem one_f32 : Ideal.ofBits .f32 0x3F800000#32 = (1 : EReal) := by
  simp [Ideal.ofBits, Ideal.ieee, -EReal.coe_mul]; norm_num

variable (X : (⟨S32768x2048, .f32⟩ : BufTy).Contents (Elt Ideal)) (W : (⟨S16x4096x2048, .f32⟩ : BufTy).Contents (Elt Ideal))
  (D : (⟨S16x2048x2048, .f32⟩ : BufTy).Contents (Elt Ideal))

/-- The first stacked product at `(e, t, h)`: token `t` of expert `e` against weight row `h`. -/
theorem proj_stage (e : Fin 16) (t : Fin 2048) (h : Fin 4096) :
    val_main_v1 (F := Ideal) X W (ix3 e t h) = Cert.Experts.proj (val_main_v0 (F := Ideal) X) W e t h := by
  rw [val_main_v1_apply]
  unfold Cert.Experts.proj
  refine Finset.sum_congr rfl fun k _ => ?_
  have hl : lidx_main_v1 (ix3 e t h) k = ix3 e t k :=
    funext fun a => Fin.ext (by match a with | ⟨0, _⟩ => rfl | ⟨1, _⟩ => rfl | ⟨2, _⟩ => rfl)
  have hr : ridx_main_v1 (ix3 e t h) k = ix3 e h k :=
    funext fun a => Fin.ext (by match a with | ⟨0, _⟩ => rfl | ⟨1, _⟩ => rfl | ⟨2, _⟩ => rfl)
  rw [hl, hr]

/-- The activated product at `(e, t, j)`: the lower half of the rows is the up projection, the upper half the gate projection,
    and `g · (1 / (1 + exp (-g)))` is `g · logistic g`. -/
theorem hidden_stage (e : Fin 16) (t : Fin 2048) (j : Fin 2048) :
    val_main_v5 (F := Ideal) X W (ix3 e t j) = Cert.Experts.hidden (val_main_v0 (F := Ideal) X) W e t j := by
  have hu : idx_main_v2 (ix3 e t j) = ix3 e t (Cert.Experts.upRow j) :=
    funext fun a => Fin.ext (by match a with | ⟨0, _⟩ => rfl | ⟨1, _⟩ => rfl | ⟨2, _⟩ => rfl)
  have hg : idx_main_v3 (ix3 e t j) = ix3 e t (Cert.Experts.gateRow j) :=
    funext fun a => Fin.ext (by match a with | ⟨0, _⟩ => rfl | ⟨1, _⟩ => rfl | ⟨2, _⟩ => rfl)
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v2_apply, val_main_v3_apply, hu, hg, proj_stage, proj_stage]
  unfold Cert.Experts.hidden
  simp only [Ideal.ofBits_def, one_f32]
  rfl

/-- The second stacked product is the grouped result. -/
theorem result_stage :
    val_main_v6 (F := Ideal) X W D = Cert.Experts.result (val_main_v0 (F := Ideal) X) W D := by
  funext i
  obtain ⟨e, t, d, rfl⟩ : ∃ (e : Fin 16) (t : Fin 2048) (d : Fin 2048), i = ix3 e t d := ⟨i 0, i 1, i 2, eq_ix3 i⟩
  rw [val_main_v6_apply]
  show _ = Cert.Experts.out (val_main_v0 (F := Ideal) X) W D e t d
  unfold Cert.Experts.out
  refine Finset.sum_congr rfl fun j _ => ?_
  have hl : lidx_main_v6 (ix3 e t d) j = ix3 e t j :=
    funext fun a => Fin.ext (by match a with | ⟨0, _⟩ => rfl | ⟨1, _⟩ => rfl | ⟨2, _⟩ => rfl)
  have hr : ridx_main_v6 (ix3 e t d) j = ix3 e j d :=
    funext fun a => Fin.ext (by match a with | ⟨0, _⟩ => rfl | ⟨1, _⟩ => rfl | ⟨2, _⟩ => rfl)
  rw [hl, hr, hidden_stage]

/-- The reference's result array is the layer of its three float arguments. -/
theorem final_stage : val_main_v7 (F := Ideal) X W D
    = Cert.Experts.layer W D X shapeCasts_S32768x2048_S16x2048x2048 shapeCasts_S16x2048x2048_S32768x2048 := by
  unfold val_main_v7 Cert.Experts.layer
  rw [result_stage]
  rfl

end Cert.ReferenceIdeal.RefValue

end
-- ==== Proof.lean ====
/-
  A grouped expert layer: the tiled kernel and the two stacked products compute the same function.

  Tokens come grouped by expert, 2048 to each of 16 experts. Per expert the reference projects every token on 4096 weight rows
  in one stacked product, splits the result into an up half and a gate half, multiplies the up half by `g · logistic g` of the
  gate half, and multiplies by the expert's down matrix in a second stacked product. The kernel tiles the same work: for each
  expert and each run of 512 tokens it walks the 2048 hidden units in 16 runs of 128, each step projecting its tokens on the 128
  up rows and 128 gate rows at once, forming the same activation, multiplying by the matching 128 rows of the down matrix and
  adding into an accumulator that the first step of the walk clears and the last step copies out.

  On the extended reals a change of float format is the identity, a product into a zero accumulator is the plain sum of
  products, and the kernel's logistic operation is the reference's `1 / (1 + exp (-g))`. So every product and every activation
  is literally the same number on both sides, and the only difference is that the kernel adds the 2048 terms of an output entry
  in 16 runs of 128, starting from zero. Addition of extended reals is commutative and associative, so the running total after
  run `h` is the sum of the first `128 (h + 1)` terms and the final total is the reference's sum; no term needs to be finite,
  and the precondition is never opened. Both programs regroup the flat token matrix by expert before and lay the rows flat
  after, by the same re-reading of a row-major array, which therefore stays unopened too.

  The three frames are the generated ones (the reference's is its generated run with the result dropped), the ideal pass rewrote
  nothing, and the algebraic claim states both runs' result at the one function `Cert.Experts.layer` of the launched arguments.
-/
import proofs.«179969_j8830452760817_1_alg».proof.Defs
import proofs.«179969_j8830452760817_1_alg».proof.Proof.Gen.Kernel
import proofs.«179969_j8830452760817_1_alg».proof.Proof.Gen.Kernel.Skeleton
import proofs.«179969_j8830452760817_1_alg».proof.Proof.Gen.Kernel.Launch
import proofs.«179969_j8830452760817_1_alg».proof.Proof.Gen.Kernel.Points
import proofs.«179969_j8830452760817_1_alg».proof.Proof.Gen.Kernel.Frame
import proofs.«179969_j8830452760817_1_alg».proof.Proof.Gen.KernelIdeal
import proofs.«179969_j8830452760817_1_alg».proof.Proof.Gen.KernelIdeal.Skeleton
import proofs.«179969_j8830452760817_1_alg».proof.Proof.Gen.KernelIdeal.Launch
import proofs.«179969_j8830452760817_1_alg».proof.Proof.Gen.KernelIdeal.Points
import proofs.«179969_j8830452760817_1_alg».proof.Proof.Gen.KernelIdeal.Frame
import proofs.«179969_j8830452760817_1_alg».proof.Proof.Gen.ReferenceIdeal
import proofs.«179969_j8830452760817_1_alg».proof.Proof.Gen.ReferenceIdeal.Run
import proofs.«179969_j8830452760817_1_alg».proof.Proof.Gen.ReferenceIdeal.Read
import proofs.«179969_j8830452760817_1_alg».proof.Proof.Gen.Pre_finite_inputs
import proofs.«179969_j8830452760817_1_alg».proof.Proof.KernelRun
import proofs.«179969_j8830452760817_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at the layer of the launched arguments, which agree. -/
theorem algebraic : Cert.algebraic_KernelIdeal_ReferenceIdeal := by
  intro m ρ m' ρ' _ hagree
  refine ⟨fun c => Cert.Experts.layer (Cert.KernelIdeal.Blocks.wArg m c) (Cert.KernelIdeal.Blocks.dArg m c)
      (Cert.KernelIdeal.Blocks.xArg m c) Cert.KernelIdeal.Gen.shapeCasts_S32768x2048_S16x2048x2048
      Cert.KernelIdeal.Gen.shapeCasts_S16x2048x2048_S32768x2048,
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.final_stage, (hagree c).1,
    (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
